-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4x2048 : Shape := ⟨2, ![4, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S8192x2048 .f32) (main_arg1 : FVec F S4x2048 .f32) (main_arg2 : FVec F S4x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  main_v13
-- ==== Kernel.lean ====
abbrev S8192x2048 : Shape := ⟨2, ![8192, 2048]⟩
abbrev S4x2048 : Shape := ⟨2, ![4, 2048]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩
abbrev S2048 : Shape := ⟨1, ![2048]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S4x2048, .f32⟩
  | .local _ .vmem, ⟨3, _⟩ => ⟨S4x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S4x2048_S1x2048_0_0 : ∀ a, (![0, 0] : Fin 2 → Nat) a + S1x2048.size a ≤ S4x2048.size a
  h_S1x2048 : 0 < S1x2048.numel
  shapeCasts_S1x2048_S2048 : S1x2048.ShapeCasts S2048
  shapeCasts_S2048_S1x2048 : S2048.ShapeCasts S1x2048
  broadcasts_S512x1_S512x2048 : S512x1.Broadcasts S512x2048
  broadcasts_S1x2048_S512x2048 : S1x2048.Broadcasts S512x2048
  inb_S4x2048_S1x2048_1_0 : ∀ a, (![1, 0] : Fin 2 → Nat) a + S1x2048.size a ≤ S4x2048.size a
  inb_S4x2048_S1x2048_2_0 : ∀ a, (![2, 0] : Fin 2 → Nat) a + S1x2048.size a ≤ S4x2048.size a
  inb_S4x2048_S1x2048_3_0 : ∀ a, (![3, 0] : Fin 2 → Nat) a + S1x2048.size a ≤ S4x2048.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S4x2048 : Shape := ⟨2, ![4, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S8192x2048, .f32⟩
  | .hbm, ⟨60, _⟩ => ⟨S8192x2048, .f32⟩
  | .hbm, ⟨61, _⟩ => ⟨S1x2048, .f32⟩
  | .hbm, ⟨62, _⟩ => ⟨S2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  slices_S4x2048_S1x2048_0_0 : S4x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S4x2048_S1x2048_1_0 : S4x2048.Slices ![1, 0] S1x2048
  slices_S4x2048_S1x2048_2_0 : S4x2048.Slices ![2, 0] S1x2048
  slices_S4x2048_S1x2048_3_0 : S4x2048.Slices ![3, 0] S1x2048

variable [Facts₀]

class Facts : Prop extends Facts₀ where

variable [Facts]
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.LibRowSum.lean ====
/-
  A reduction of a matrix along its second axis, read at a row.

  A `vector.multi_reduction <add>` of an `[a, b]` array over axis 1 into an `[a]` array holds, at `r`, the sum of row
  `r`: the index the reduction inserts at position `k` of the reduced axis under the kept index `r` is `(r, k)`. Stated
  with the coordinate constructors `ix1` / `ix2`, at any extents, over the extended reals.
-/
import Idealize.ShloMosaic.PureOps.Ideal.Laws
import Idealize.ShloMosaic.Lib.ValueIdx

noncomputable section

open scoped BigOperators

namespace Cert.Lib.RowSum

open Idealize.ShloMosaic Idealize.ShloMosaic.ValueIdx

/-- The sum over the second axis, at row `r`, is `∑ k, src (r, k)`. -/
theorem multiReduction_add_row_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  refine Finset.sum_congr rfl fun k _ => congrArg src (funext fun d => Fin.ext ?_)
  match d with
  | ⟨0, _⟩ => rfl
  | ⟨1, _⟩ => rfl

end Cert.Lib.RowSum

end
-- ==== Proof.LibHostRows.lean ====
/-
  Host operations around a row reduction that keeps its axis, read at an index given by coordinates.

  jnp's `sum(axis=1, keepdims=True)` followed by an implicit broadcast prints, on the host, as a `reduce` over
  axis 1 into `[a]`, a `broadcast_in_dim` along `dims = [0]` into the column `[a, 1]`, and a `broadcast_in_dim`
  along `dims = [0, 1]` back to `[a, b]`; a row `W[l]` of a table prints as a one-row slice `[l:l+1, 0:b]`, a
  reshape to `[b]`, a `broadcast_in_dim` along `dims = [1]` to `[1, b]` and one along `dims = [0, 1]` to
  `[a, b]`. Each lemma reads one of these at an index written with `ix1` / `ix2`, at any extents, so that it
  applies to a printed operation by unification. They are the host-side companions of the `vector.broadcast` /
  `vector.shape_cast` readings of a lane reduction that keeps its axis.
-/
import Idealize.ShloMosaic.PureOps.Ideal.Laws
import Idealize.ShloMosaic.Lib.Pipeline.Value
import Idealize.ShloMosaic.Lib.ValueIdx

noncomputable section

open scoped BigOperators

namespace Cert.Lib.HostRows

open Idealize.ShloMosaic Idealize.ShloMosaic.ValueIdx

variable {α : Type}

/-- An `[a]` array broadcast along `dims = [0]` into a column `[a, 1]` reads, at `(p, u)`, the operand at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A column `[a, 1]` broadcast along `dims = [0, 1]` to `[a, b]` reads, at `(p, k)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (k : Fin b) :
    broadcastInDim ⟨2, ![a, b]⟩ ![0, 1] h v (ix2 p k) = v (ix2 p (0 : Fin 1)) := by
  refine broadcastInDim_apply ![0, 1] h v (ix2 p k) (ix2 p (0 : Fin 1)) fun ax => ?_
  match ax with
  | ⟨0, _⟩ =>
    show p.val = if a = 1 then 0 else p.val
    split
    · have := p.isLt; omega
    · rfl
  | ⟨1, _⟩ => rfl

/-- A `[b]` array broadcast along `dims = [1]` into one row `[1, b]` reads, at `(u, k)`, the operand at `k`. -/
theorem broadcastInDim_b_1b_apply {b : ℕ} (v : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h v (ix2 u k) = v (ix1 k) := by
  refine broadcastInDim_apply ![1] h v (ix2 u k) (ix1 k) fun ax => ?_
  match ax with
  | ⟨0, _⟩ =>
    show k.val = if b = 1 then 0 else k.val
    split
    · have := k.isLt; omega
    · rfl

/-- One row `[1, b]` broadcast along `dims = [0, 1]` to `[a, b]` reads, at `(p, k)`, the row at `k`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h v (ix2 p k) = v (ix2 (0 : Fin 1) k) := by
  refine broadcastInDim_apply ![0, 1] h v (ix2 p k) (ix2 (0 : Fin 1) k) fun ax => ?_
  match ax with
  | ⟨0, _⟩ => rfl
  | ⟨1, _⟩ =>
    show k.val = if b = 1 then 0 else k.val
    split
    · have := k.isLt; omega
    · rfl

/-- The one-row slice `[l : l + 1, 0 : b]` of an `[n, b]` array reads, at `(u, k)`, the array at `(l, k)`. -/
theorem slice_row_apply {n b : ℕ} (x : (⟨2, ![n, b]⟩ : Shape).Idx → α) (l : ℕ) (hl : l < n)
    (h : (⟨2, ![n, b]⟩ : Shape).Slices ![l, 0] ⟨2, ![1, b]⟩) (u : Fin 1) (k : Fin b) :
    extractStridedSlice ⟨2, ![1, b]⟩ ![l, 0] x h (ix2 u k) = x (ix2 (⟨l, hl⟩ : Fin n) k) := by
  refine extractStridedSlice_apply ![l, 0] x h (ix2 u k) (ix2 (⟨l, hl⟩ : Fin n) k) fun ax => ?_
  match ax with
  | ⟨0, _⟩ =>
    show l = l + u.val
    omega
  | ⟨1, _⟩ =>
    show k.val = 0 + k.val
    omega

/-- The host's float sum of an `[a, b]` array over axis 1, from an initial value that is zero, holds at `p` the sum of
    row `p` over the extended reals. -/
theorem reduceAdd_row_apply {a b : ℕ} {u : Shape} (x : FVec Ideal (⟨2, ![a, b]⟩ : Shape) .f32) (init : u.Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < u.numel) (hinit : (init (Shape.Idx.first hu) : EReal) = 0) (p : Fin a) :
    Host.reduceAdd x init h' hu (ix1 p) = ∑ k : Fin b, x (ix2 p k) := by
  simp only [Host.reduceAdd, Ideal.hostReduceAdd_def]
  rw [Ideal.hostReduceAdd_single h' h, hinit, zero_add]
  refine Finset.sum_congr rfl fun k _ => congrArg x (funext fun d => Fin.ext ?_)
  match d with
  | ⟨0, _⟩ => rfl
  | ⟨1, _⟩ => rfl

end Cert.Lib.HostRows

end
-- ==== Proof.CrossRow.lean ====
/-
  One cross layer of a deep-and-cross network, on one row.

  With `x` the layer-zero row and `cr` the current row, a layer with weight row `w` and bias row `b` leaves

      cr' k = ((∑ j, cr j) · x k) · w k + b k + cr k

  (the d × d outer product `cr ⊗ x`, weighted by `w` and summed over its first axis, collapses to the scalar `∑ cr`
  times `x · w`). The row of the result depends on row `p` of the operands only, whatever the number of rows: that
  is why a tiling by rows computes the same array. Both the lane form (a `vector.multi_reduction` that keeps its
  axis, `vector.broadcast`s) and the host form (a `reduce`, `broadcast_in_dim`s, a one-row slice of the table) of a
  layer are read here at a row as `rowStep`, in the grouping `((s · x) · w + b) + cr` both programs use, so no law of
  the extended reals beyond reading the operations is involved.
-/
import Idealize.ShloMosaic.PureOps.Ideal.Laws
import Idealize.ShloMosaic.Lib.Pipeline.Value
import Idealize.ShloMosaic.Lib.ValueIdx
import Idealize.ShloMosaic.Lib.ValueLayout
import proofs.«156258_j4286377361515_1_alg».proof.Proof.LibKeepdims
import proofs.«156258_j4286377361515_1_alg».proof.Proof.LibRowSum
import proofs.«156258_j4286377361515_1_alg».proof.Proof.LibHostRows

noncomputable section

open scoped BigOperators

namespace Cert.Cross

open Idealize.ShloMosaic Idealize.ShloMosaic.ValueIdx
open Cert.Lib.Keepdims Cert.Lib.RowSum Cert.Lib.HostRows

/-- Row `p` of an `[a, b]` array. -/
def rowOf {a b : ℕ} (v : (⟨2, ![a, b]⟩ : Shape).Idx → EReal) (p : Fin a) : Fin b → EReal := fun k => v (ix2 p k)

theorem rowOf_apply {a b : ℕ} (v : (⟨2, ![a, b]⟩ : Shape).Idx → EReal) (p : Fin a) (k : Fin b) :
    rowOf v p k = v (ix2 p k) := rfl

/-- One cross layer on a row: `((∑ cr) · x) · w + b + cr`, entry by entry. -/
def rowStep {n : ℕ} (x cr w b : Fin n → EReal) : Fin n → EReal :=
  fun k => (∑ j, cr j) * x k * w k + b k + cr k

/-- The four layers of the network on a row, from the row itself. -/
def crossRows {n : ℕ} (x : Fin n → EReal) (w b : Fin 4 → Fin n → EReal) : Fin n → EReal :=
  rowStep x (rowStep x (rowStep x (rowStep x x (w 0) (b 0)) (w 1) (b 1)) (w 2) (b 2)) (w 3) (b 3)

/-- The network on a whole `[a, b]` array with `[4, b]` tables: every row by itself, so the same formula serves a block of
    rows and the whole array. -/
def netOf {a b : ℕ} (X : (⟨2, ![a, b]⟩ : Shape).Idx → EReal) (W B : (⟨2, ![4, b]⟩ : Shape).Idx → EReal) :
    (⟨2, ![a, b]⟩ : Shape).Idx → EReal :=
  fun i => crossRows (rowOf X (i 0)) (rowOf W) (rowOf B) (i 1)

theorem netOf_apply {a b : ℕ} (X : (⟨2, ![a, b]⟩ : Shape).Idx → EReal) (W B : (⟨2, ![4, b]⟩ : Shape).Idx → EReal)
    (p : Fin a) (k : Fin b) : netOf X W B (ix2 p k) = crossRows (rowOf X p) (rowOf W) (rowOf B) k := rfl

/-- The network at an index depends on the index's row of `X` and on its column only: two arrays (of any numbers of
    rows) that have the same row under two indices with the same column give the same value there. -/
theorem netOf_eq_of_row {a a' b : ℕ} (X : (⟨2, ![a, b]⟩ : Shape).Idx → EReal) (X' : (⟨2, ![a', b]⟩ : Shape).Idx → EReal)
    (W B : (⟨2, ![4, b]⟩ : Shape).Idx → EReal) (i : (⟨2, ![a, b]⟩ : Shape).Idx) (i' : (⟨2, ![a', b]⟩ : Shape).Idx)
    (hrow : rowOf X (i 0) = rowOf X' (i' 0)) (hcol : (i 1 : Fin b) = i' 1) : netOf X W B i = netOf X' W B i' := by
  show crossRows (rowOf X (i 0)) (rowOf W) (rowOf B) (i 1) = crossRows (rowOf X' (i' 0)) (rowOf W) (rowOf B) (i' 1)
  rw [hrow, hcol]

/-- THE LANE FORM of a layer, at row `p`: the row sum by a lane reduction cast to a column and broadcast back, the weight
    and bias rows (each loaded as `[1, b]`, cast to `[b]` and back) broadcast over the rows. -/
theorem lane_layer_row {a b : ℕ} (x cr : FVec Ideal (⟨2, ![a, b]⟩ : Shape) .f32) (w bi : FVec Ideal (⟨2, ![1, b]⟩ : Shape) .f32)
    (hr : (⟨2, ![a, b]⟩ : Shape).Reduces [1] (⟨1, ![a]⟩ : Shape)) (hφ : FKind.Formats FTy.f32)
    (hacc : (0x00000000#32 : BitVec FTy.f32.bits) = FKind.add.neutral FTy.f32 hφ)
    (hc : (⟨1, ![a]⟩ : Shape).ShapeCasts ⟨2, ![a, 1]⟩) (hb : (⟨2, ![a, 1]⟩ : Shape).Broadcasts ⟨2, ![a, b]⟩)
    (h1 : (⟨2, ![1, b]⟩ : Shape).ShapeCasts ⟨1, ![b]⟩) (h2 : (⟨1, ![b]⟩ : Shape).ShapeCasts ⟨2, ![1, b]⟩)
    (hbr : (⟨2, ![1, b]⟩ : Shape).Broadcasts ⟨2, ![a, b]⟩) (p : Fin a) :
    rowOf (addf (addf (mulf (mulf (broadcastTo ⟨2, ![a, b]⟩ (shapeCast ⟨2, ![a, 1]⟩
        (multiReduction .add [1] (⟨1, ![a]⟩ : Shape) cr 0x00000000#32 hr hφ hacc) hc) hb) x)
        (broadcastTo ⟨2, ![a, b]⟩ (shapeCast ⟨2, ![1, b]⟩ (shapeCast ⟨1, ![b]⟩ w h1) h2) hbr))
        (broadcastTo ⟨2, ![a, b]⟩ (shapeCast ⟨2, ![1, b]⟩ (shapeCast ⟨1, ![b]⟩ bi h1) h2) hbr)) cr) p
      = rowStep (rowOf x p) (rowOf cr p) (rowOf w 0) (rowOf bi 0) := by
  funext k
  rw [rowOf_apply, addf_apply, addf_apply, mulf_apply, mulf_apply, broadcastTo_a1_ab_apply, shapeCast_a_a1_apply,
    multiReduction_add_row_apply, broadcastTo_1b_ab_apply, shapeCast_a_1a_apply, shapeCast_1a_a_apply,
    broadcastTo_1b_ab_apply, shapeCast_a_1a_apply, shapeCast_1a_a_apply]
  rfl

/-- THE HOST FORM of a layer, at row `p`: the row sum by the host's `reduce` from a zero initial value, broadcast to a
    column and back over the row, the weight and bias rows sliced out of their tables at row `l`. -/
theorem host_layer_row {a b n : ℕ} {u : Shape} (x cr : FVec Ideal (⟨2, ![a, b]⟩ : Shape) .f32)
    (W B : FVec Ideal (⟨2, ![n, b]⟩ : Shape) .f32) (l : ℕ) (hl : l < n)
    (hrt : (⟨2, ![a, b]⟩ : Shape).ReducesTo [1] (⟨1, ![a]⟩ : Shape)) (hr : (⟨2, ![a, b]⟩ : Shape).Reduces [1] (⟨1, ![a]⟩ : Shape))
    (hu : 0 < u.numel)
    (hc1 : (⟨1, ![a]⟩ : Shape).BroadcastsInDim ⟨2, ![a, 1]⟩ ![0]) (hc2 : (⟨2, ![a, 1]⟩ : Shape).BroadcastsInDim ⟨2, ![a, b]⟩ ![0, 1])
    (hs : (⟨2, ![n, b]⟩ : Shape).Slices ![l, 0] ⟨2, ![1, b]⟩) (hsc : (⟨2, ![1, b]⟩ : Shape).ShapeCasts ⟨1, ![b]⟩)
    (hw1 : (⟨1, ![b]⟩ : Shape).BroadcastsInDim ⟨2, ![1, b]⟩ ![1]) (hw2 : (⟨2, ![1, b]⟩ : Shape).BroadcastsInDim ⟨2, ![a, b]⟩ ![0, 1])
    (p : Fin a) :
    rowOf (addf (addf (mulf (mulf (broadcastInDim ⟨2, ![a, b]⟩ ![0, 1] hc2 (broadcastInDim ⟨2, ![a, 1]⟩ ![0] hc1
        (Host.reduceAdd cr (constant (F := Ideal) u .f32 0x00000000#32) hrt hu))) x)
        (broadcastInDim ⟨2, ![a, b]⟩ ![0, 1] hw2 (broadcastInDim ⟨2, ![1, b]⟩ ![1] hw1
          (shapeCast ⟨1, ![b]⟩ (extractStridedSlice ⟨2, ![1, b]⟩ ![l, 0] W hs) hsc))))
        (broadcastInDim ⟨2, ![a, b]⟩ ![0, 1] hw2 (broadcastInDim ⟨2, ![1, b]⟩ ![1] hw1
          (shapeCast ⟨1, ![b]⟩ (extractStridedSlice ⟨2, ![1, b]⟩ ![l, 0] B hs) hsc)))) cr) p
      = rowStep (rowOf x p) (rowOf cr p) (rowOf W ⟨l, hl⟩) (rowOf B ⟨l, hl⟩) := by
  funext k
  rw [rowOf_apply, addf_apply, addf_apply, mulf_apply, mulf_apply, broadcastInDim_a1_ab_apply, broadcastInDim_a_a1_apply,
    reduceAdd_row_apply cr _ hrt hr hu ((constant_apply _ _).trans Ideal.ofBits_zero_f32),
    broadcastInDim_1b_ab_apply, broadcastInDim_b_1b_apply, shapeCast_1a_a_apply, slice_row_apply W l hl,
    broadcastInDim_1b_ab_apply, broadcastInDim_b_1b_apply, shapeCast_1a_a_apply, slice_row_apply B l hl]
  rfl

end Cert.Cross

end
-- ==== Proof.KernelBlock.lean ====
/-
  What the kernel body leaves in its output block: the cross network of its block of rows.

  The body loads its whole `[512, 2048]` block of `x` and, layer by layer, row `l` of the `[4, 2048]` weight and bias
  blocks; its one store covers the output block. Its payload is four lane layers nested, each read at a row as
  `rowStep` (`lane_layer_row`), and the row a one-row load at offset `(l, 0)` reads is row `l` of the table block. So
  the block left is `netOf` of the three input blocks: every row of the block by itself.
-/
import proofs.«156258_j4286377361515_1_alg».proof.Proof.Gen.KernelIdeal.Value
import proofs.«156258_j4286377361515_1_alg».proof.Proof.CrossRow

noncomputable section

namespace Cert.KernelIdeal.Block

open Cert.KernelIdeal Cert.KernelIdeal.Gen Idealize.ShloMosaic Idealize.ShloMosaic.TcCoe Idealize.ShloMosaic.ValueIdx
open Cert.Cross

/-- The zero offsets of the whole-block rectangle, as the constant function. -/
theorem zero_off : (![0, 0] : Fin 2 → Nat) = fun _ => 0 := funext fun a => by fin_cases a <;> rfl

/-- A one-row load of a `[4, 2048]` block at offset `(l, 0)` reads row `l` of the block. -/
theorem row_of_load (x : Vec Ideal S4x2048 .f32) (l : ℕ) (hl : l < 4)
    (inb : ∀ a, (![l, 0] : Fin 2 → Nat) a + S1x2048.size a ≤ S4x2048.size a) :
    rowOf (View.ld x (Rect.unit (s := S4x2048) ![l, 0] S1x2048.size inb)) 0 = rowOf x (⟨l, hl⟩ : Fin 4) := by
  funext k
  show x ((Rect.unit (s := S4x2048) ![l, 0] S1x2048.size inb).idx (ix2 (0 : Fin 1) k)) = x (ix2 (⟨l, hl⟩ : Fin 4) k)
  refine congrArg x (funext fun a => Fin.ext ?_)
  match a with
  | ⟨0, _⟩ =>
    show l + 1 * 0 = l
    omega
  | ⟨1, _⟩ =>
    show 0 + 1 * k.val = k.val
    omega

/-- One layer as the body prints it, on a `[512, 2048]` block: the current block `cr` summed along its rows by a lane
    reduction from zero, the sums cast to a column and broadcast back, times the layer-zero block `x`, times the weight
    row, plus the bias row, plus `cr`. -/
def laneLayer (x cr : Vec Ideal S512x2048 .f32) (w b : Vec Ideal S1x2048 .f32) : FVec Ideal S512x2048 .f32 :=
  addf (addf (mulf (mulf (broadcastTo S512x2048 (shapeCast S512x1
      (multiReduction .add [1] S512 cr 0x00000000#32 reduces_S512x2048_S512 (.inl rfl) rfl) shapeCasts_S512_S512x1)
      broadcasts_S512x1_S512x2048) x)
    (broadcastTo S512x2048 (shapeCast S1x2048 (shapeCast S2048 w shapeCasts_S1x2048_S2048) shapeCasts_S2048_S1x2048)
      broadcasts_S1x2048_S512x2048))
    (broadcastTo S512x2048 (shapeCast S1x2048 (shapeCast S2048 b shapeCasts_S1x2048_S2048) shapeCasts_S2048_S1x2048)
      broadcasts_S1x2048_S512x2048)) cr

/-- Row `p` of a printed layer is the row step of row `p` of its operands. -/
theorem laneLayer_row (x cr : Vec Ideal S512x2048 .f32) (w b : Vec Ideal S1x2048 .f32) (p : Fin 512) :
    rowOf (a := 512) (b := 2048) (laneLayer x cr w b) p = rowStep (rowOf x p) (rowOf cr p) (rowOf w 0) (rowOf b 0) :=
  lane_layer_row x cr w b _ _ _ _ _ _ _ _ p

/-- The stored payload is four printed layers nested, from the loaded block of `x` itself: the payloads' `have`s
    substituted. -/
theorem payload_eq (P0 : Vec Ideal S512x2048 .f32) (P1 P2 P3 P4 P5 P6 P7 P8 : Vec Ideal S1x2048 .f32) :
    k0_pay1 P0 (k0_pay2 P0 P1 P2 P3 P4) (k0_pay3 P6) (k0_pay4 P0 P1 P2 P3 P4) (k0_pay5 P5) P7 P8
      = laneLayer P0 (laneLayer P0 (laneLayer P0 (laneLayer P0 P0 P1 P2) P3 P4) P5 P6) P7 P8 := rfl

/-- THE BLOCK THE BODY LEAVES is the network of its input blocks, row by row. -/
theorem body_eq (x0 : Vec Ideal S512x2048 .f32) (x1 x2 : Vec Ideal S4x2048 .f32) :
    out0_3 x0 x1 x2 = netOf x0 x1 x2 := by
  unfold out0_3
  rw [View.canon_unit_zero zero_off]
  simp only [View.ld_unit_zero (S := S512x2048) zero_off]
  rw [payload_eq]
  funext i
  obtain ⟨p, k, rfl⟩ : ∃ (p : Fin 512) (k : Fin 2048), i = ix2 p k := ⟨i 0, i 1, eq_ix2 i⟩
  rw [netOf_apply]
  show rowOf (a := 512) (b := 2048) (laneLayer _ _ _ _) p k = _
  refine congrFun ?_ k
  rw [laneLayer_row, laneLayer_row, laneLayer_row, laneLayer_row,
    row_of_load x1 0 (by decide), row_of_load x2 0 (by decide), row_of_load x1 1 (by decide), row_of_load x2 1 (by decide),
    row_of_load x1 2 (by decide), row_of_load x2 2 (by decide), row_of_load x1 3 (by decide), row_of_load x2 3 (by decide)]
  rfl

end Cert.KernelIdeal.Block

end
-- ==== Proof.KernelNet.lean ====
/-
  From the blocks to the array: the kernel's result is the cross network of its arguments.

  Grid point `t` (of 16) works on rows `512 t … 512 t + 511`: its block of `x` and of the output is block `(t, 0)`, its
  blocks of the two tables are the whole tables. The network treats every row by itself (`netOf`), so the block point
  `t` writes back — the network of its input blocks (`body_eq`) — is block `t` of the network of the whole arrays: row
  `q` of the block is row `512 t + q` of `x`. Row `r` of the output lies in the block of point `r / 512`, so the sixteen
  blocks cover the array, which therefore ends holding `netOf` of the arguments.
-/
import proofs.«156258_j4286377361515_1_alg».proof.Proof.Gen.KernelIdeal.Value
import proofs.«156258_j4286377361515_1_alg».proof.Proof.KernelBlock

noncomputable section

namespace Cert.KernelIdeal.Net

open Cert.KernelIdeal Cert.KernelIdeal.Gen Idealize.ShloMosaic Idealize.ShloMosaic.TcCoe Idealize.SL.Sem
open Idealize.ShloMosaic.ValueIdx Cert.Cross
open Idealize.ShloMosaic.Pipeline (Dat)

variable (m : (ℓ : Loc nD τ sig) → Buf (Elt Ideal) ℓ) (ρ : Dev nD → PrngReg)

/-- The printed index maps over the sixteen points: `x` and the output move with the point along the rows, the tables
    stay at block `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0)

/-- The three argument arrays as the region finds them, at their literal types. -/
abbrev xArr (c : Dev nD) : Vec Ideal S8192x2048 .f32 := V m c main_arg0
abbrev wArr (c : Dev nD) : Vec Ideal S4x2048 .f32 := V m c main_arg1
abbrev bArr (c : Dev nD) : Vec Ideal S4x2048 .f32 := V m c main_arg2

/-- The input blocks at a point, at their literal types. -/
abbrev xBlk (c : Dev nD) (t : Fin cfg0.N) : Vec Ideal S512x2048 .f32 := iblk m c 0 t
abbrev wBlk (c : Dev nD) (t : Fin cfg0.N) : Vec Ideal S4x2048 .f32 := iblk m c 1 t
abbrev bBlk (c : Dev nD) (t : Fin cfg0.N) : Vec Ideal S4x2048 .f32 := iblk m c 2 t

/-- The weight table's block at every point is the whole table. -/
theorem wBlk_eq (c : Dev nD) (t : Fin cfg0.N) : wBlk m c t = wArr m c := by
  obtain ⟨-, -, e10, e11, -, -, -, -⟩ := index_facts t
  funext y
  show V m c main_arg1 (((cfg0.win 1).blk t).view.emb y) = V m c main_arg1 y
  refine congrArg (V m c main_arg1) (funext fun a => Fin.ext ?_)
  match a with
  | ⟨0, _⟩ =>
    show win0_1.index t (0 : Fin 2) * 4 + 1 * (y 0).val = (y 0).val
    rw [e10]; omega
  | ⟨1, _⟩ =>
    show win0_1.index t (1 : Fin 2) * 2048 + 1 * (y 1).val = (y 1).val
    rw [e11]; omega

/-- The bias table's block at every point is the whole table. -/
theorem bBlk_eq (c : Dev nD) (t : Fin cfg0.N) : bBlk m c t = bArr m c := by
  obtain ⟨-, -, -, -, e20, e21, -, -⟩ := index_facts t
  funext y
  show V m c main_arg2 (((cfg0.win 2).blk t).view.emb y) = V m c main_arg2 y
  refine congrArg (V m c main_arg2) (funext fun a => Fin.ext ?_)
  match a with
  | ⟨0, _⟩ =>
    show win0_2.index t (0 : Fin 2) * 4 + 1 * (y 0).val = (y 0).val
    rw [e20]; omega
  | ⟨1, _⟩ =>
    show win0_2.index t (1 : Fin 2) * 2048 + 1 * (y 1).val = (y 1).val
    rw [e21]; omega

/-- Row `j 0` of `x`'s block at point `t` is the row of `x` under the output block's index `j`. -/
theorem xBlk_row (c : Dev nD) (t : Fin cfg0.N) (j : S512x2048.Idx) :
    rowOf (xBlk m c t) (j 0) = rowOf (xArr m c) ((((cfg0.win 3).blk t).view.emb j : S8192x2048.Idx) 0) := by
  obtain ⟨e00, e01, -, -, -, -, e30, -⟩ := index_facts t
  funext k
  show V m c main_arg0 (((cfg0.win 0).blk t).view.emb (ix2 (j 0) k)) = V m c main_arg0 (ix2 ((((cfg0.win 3).blk t).view.emb j : S8192x2048.Idx) 0) k)
  refine congrArg (V m c main_arg0) (funext fun a => Fin.ext ?_)
  match a with
  | ⟨0, _⟩ =>
    show win0_0.index t (0 : Fin 2) * 512 + 1 * (j 0).val = win0_3.index t (0 : Fin 2) * 512 + 1 * (j 0).val
    rw [e00, e30]
  | ⟨1, _⟩ =>
    show win0_0.index t (1 : Fin 2) * 2048 + 1 * k.val = k.val
    rw [e01]; omega

/-- WHAT POINT `t` WRITES BACK is block `t` of the network of the argument arrays. -/
theorem flushed_eq (c : Dev nD) (t : Fin cfg0.N) :
    (dats m 0 c).flushed 3 t = ((cfg0.win 3).blk t).view.read (Elt Ideal) (netOf (xArr m c) (wArr m c) (bArr m c)) := by
  rw [Cert.KernelIdeal.Value.flushed3 m c t]
  obtain ⟨-, -, -, -, -, -, -, e31⟩ := index_facts t
  funext j
  show out0_3 (xBlk m c t) (wBlk m c t) (bBlk m c t) j = netOf (xArr m c) (wArr m c) (bArr m c) (((cfg0.win 3).blk t).view.emb j)
  refine (congrFun (Cert.KernelIdeal.Block.body_eq (xBlk m c t) (wBlk m c t) (bBlk m c t)) j).trans ?_
  rw [wBlk_eq m c t, bBlk_eq m c t]
  refine netOf_eq_of_row (xBlk m c t) (xArr m c) (wArr m c) (bArr m c) j (((cfg0.win 3).blk t).view.emb j) (xBlk_row m c t j) (Fin.ext ?_)
  show (j 1).val = win0_3.index t (1 : Fin 2) * 2048 + 1 * (j 1).val
  rw [e31]; omega

/-- An index of the output array is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0).slice (win0_3.rect t)).set ↔ _
  rw [View.set_slice_whole, Rect.mem_set_unit]
  exact Iff.rfl

/-- THE COVER: row `r` of the output is written back by point `r / 512`. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hq : (i 0).val / 512 < 16 := by omega
  obtain ⟨-, -, -, -, -, -, e30, e31⟩ := index_facts (⟨(i 0).val / 512, hq⟩ : Fin cfg0.N)
  have e30' : win0_3.index (⟨(i 0).val / 512, hq⟩ : Fin cfg0.N) (0 : Fin 2) = (i 0).val / 512 := e30
  refine ⟨⟨(i 0).val / 512, hq⟩, flush0_3 _, ?_⟩
  rw [mem_blk]
  intro a
  match a with
  | ⟨0, _⟩ =>
    show win0_3.index (⟨(i 0).val / 512, hq⟩ : Fin cfg0.N) (0 : Fin 2) * 512 ≤ (i 0).val
      ∧ (i 0).val < win0_3.index (⟨(i 0).val / 512, hq⟩ : Fin cfg0.N) (0 : Fin 2) * 512 + 512
    rw [e30']; omega
  | ⟨1, _⟩ =>
    show win0_3.index (⟨(i 0).val / 512, hq⟩ : Fin cfg0.N) (1 : Fin 2) * 2048 ≤ (i 1).val
      ∧ (i 1).val < win0_3.index (⟨(i 0).val / 512, hq⟩ : Fin cfg0.N) (1 : Fin 2) * 2048 + 2048
    rw [e31]; omega

/-- THE ARRAY after the run is the network of the argument arrays. -/
theorem final (c : Dev nD) :
    (dats m 0 c).arrAt 3 cfg0.N = netOf (m ((c : Thread nD τ).loc main_arg0)) (m ((c : Thread nD τ).loc main_arg1))
      (m ((c : Thread nD τ).loc main_arg2)) :=
  (dats m 0 c).arrAt_eq_of_cover 3 (netOf (xArr m c) (wArr m c) (bArr m c)) (fun t _ => flushed_eq m c t) cover

/-- The kernel's run: the result array at the network of the arguments, the arguments unchanged. -/
theorem run : θ_run defs (onTc (τ := τ) (main (F := Ideal))) ⟨m, fun _ => 0, ρ⟩ fun r => ∀ c : Dev nD,
      r.2.mem ((c : Thread nD τ).loc main_v0) = netOf (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Net

end
-- ==== Proof.ReferenceNet.lean ====
/-
  The reference computes the cross network, row by row.

  Its result is four host layers nested: each sums the current array along its rows, multiplies the row sums
  (broadcast back) by the layer-zero array and by row `l` of the weight table, adds row `l` of the bias table and the
  current array. Read at row `p` each layer is `rowStep` of row `p` (`host_layer_row`), so the result at `(p, k)` is
  `crossRows` of row `p` of `x` at `k`: the whole-array function `netOf`.
-/
import proofs.«156258_j4286377361515_1_alg».proof.Proof.Gen.ReferenceIdeal.Run
import proofs.«156258_j4286377361515_1_alg».proof.Proof.CrossRow

noncomputable section

namespace Cert.ReferenceIdeal.RefNet

open Cert.ReferenceIdeal Cert.ReferenceIdeal.Gen Idealize.ShloMosaic Idealize.ShloMosaic.TcCoe Idealize.ShloMosaic.ValueIdx
open Cert.Cross

/-- The row sum's side condition in the form the sum lemma wants. -/
theorem reduces_rows : S8192x2048.Reduces [1] S8192 := by decide

/-- The reference's result term is `netOf` of the three argument arrays. -/
theorem result_eq (m : (ℓ : Loc nD τ sig) → Buf (Elt Ideal) ℓ) (c : Dev nD) :
    Cert.ReferenceIdeal.Value.res_main_v59 (F := Ideal) m c
      = netOf (m ((c.tc : Thread nD τ).loc main_arg0)) (m ((c.tc : Thread nD τ).loc main_arg1))
          (m ((c.tc : Thread nD τ).loc main_arg2)) := by
  unfold Cert.ReferenceIdeal.Value.res_main_v59
  funext i
  obtain ⟨p, k, rfl⟩ : ∃ (p : Fin 8192) (k : Fin 2048), i = ix2 p k := ⟨i 0, i 1, eq_ix2 i⟩
  rw [netOf_apply]
  show rowOf (a := 8192) (b := 2048) (addf (F := Ideal) (s := S8192x2048) (φ := .f32) _ _) p k = _
  refine congrFun ?_ k
  rw [host_layer_row (l := 3) (hl := by decide) (hr := reduces_rows),
    host_layer_row (l := 2) (hl := by decide) (hr := reduces_rows),
    host_layer_row (l := 1) (hl := by decide) (hr := reduces_rows),
    host_layer_row (l := 0) (hl := by decide) (hr := reduces_rows)]
  rfl

end Cert.ReferenceIdeal.RefNet

end
-- ==== Proof.lean ====
/-
  A deep-and-cross network's four cross layers, tiled by rows, against the same layers on the whole array.

  Both programs compute, for `x : [8192, 2048]` and tables `W, b : [4, 2048]`, four times over
  `cross ← ((Σ_j cross[r, j]) · x[r, k]) · W[l, k] + b[l, k] + cross[r, k]`, starting from `cross = x`. Every row is
  treated by itself, in the same grouping of the products and sums on both sides, so over the extended reals the two
  results agree entry by entry with no algebraic law at all: what is proved is that each side, read at a row, is the
  row recurrence `Cert.Cross.crossRows` of that row — the kernel through its blocks of 512 rows (the lane reduction
  of a block's row is the sum of the array's row; the sixteen blocks cover the array), the reference through its host
  operations. The inputs' finiteness is not used.

  The three frames: the kernel's two are the generated frame certificates; the reference, a host program, runs to its
  composed term, of which the frame is the part about the arguments. The idealization rewrote nothing.
-/
import proofs.«156258_j4286377361515_1_alg».proof.Defs
import proofs.«156258_j4286377361515_1_alg».proof.Proof.Gen.Kernel
import proofs.«156258_j4286377361515_1_alg».proof.Proof.Gen.Kernel.Skeleton
import proofs.«156258_j4286377361515_1_alg».proof.Proof.Gen.Kernel.Launch
import proofs.«156258_j4286377361515_1_alg».proof.Proof.Gen.Kernel.Points
import proofs.«156258_j4286377361515_1_alg».proof.Proof.Gen.Kernel.Frame
import proofs.«156258_j4286377361515_1_alg».proof.Proof.Gen.KernelIdeal
import proofs.«156258_j4286377361515_1_alg».proof.Proof.Gen.KernelIdeal.Skeleton
import proofs.«156258_j4286377361515_1_alg».proof.Proof.Gen.KernelIdeal.Launch
import proofs.«156258_j4286377361515_1_alg».proof.Proof.Gen.KernelIdeal.Points
import proofs.«156258_j4286377361515_1_alg».proof.Proof.Gen.KernelIdeal.Frame
import proofs.«156258_j4286377361515_1_alg».proof.Proof.Gen.ReferenceIdeal
import proofs.«156258_j4286377361515_1_alg».proof.Proof.Gen.Pre_finite_inputs
import proofs.«156258_j4286377361515_1_alg».proof.Proof.Gen.KernelIdeal.Value
import proofs.«156258_j4286377361515_1_alg».proof.Proof.Gen.ReferenceIdeal.Run
import proofs.«156258_j4286377361515_1_alg».proof.Proof.KernelNet
import proofs.«156258_j4286377361515_1_alg».proof.Proof.ReferenceNet
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run ends with the arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the cross network of the arguments (`Cert.Cross.netOf`): the kernel's array by its blocks, the
    reference's term layer by layer; the arguments agree, so the results do. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefNet.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
